-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x49x128x128 : Shape := ⟨4, ![8, 49, 128, 128]⟩
abbrev S8x128x128x64 : Shape := ⟨4, ![8, 128, 128, 64]⟩
abbrev S8x64x128 : Shape := ⟨3, ![8, 64, 128]⟩
abbrev S_ : Shape := ⟨0, ![]⟩

class Facts : Prop where
  bcast_S_S8x49x128x128 : S_.BroadcastsInDim S8x49x128x128 (![] : Fin 0 → Fin S8x49x128x128.rank)
  reducesTo_S8x49x128x128_S_d0_1_2_3 : S8x49x128x128.ReducesTo [0, 1, 2, 3] S_
  h_S_ : 0 < S_.numel
  bcast_S_S8x128x128x64 : S_.BroadcastsInDim S8x128x128x64 (![] : Fin 0 → Fin S8x128x128x64.rank)
  reducesTo_S8x128x128x64_S_d0_1_2_3 : S8x128x128x64.ReducesTo [0, 1, 2, 3] S_
  bcast_S_S8x64x128 : S_.BroadcastsInDim S8x64x128 (![] : Fin 0 → Fin S8x64x128.rank)
  reducesTo_S8x64x128_S_d0_1_2 : S8x64x128.ReducesTo [0, 1, 2] S_

variable [Facts]

def fn {F : FTy → Type} [FloatOps F] (main_arg0 : FVec F S8x49x128x128 .f32) (main_arg1 : FVec F S8x128x128x64 .f32) (main_arg2 : FVec F S8x64x128 .f32) : IVec S_ 1 :=
  let main_v0 : FVec F S8x49x128x128 .f32 := Host.absf main_arg0
  let main_cst : FVec F S_ .f32 := constant S_ .f32 0x7F800000#32
  let main_v1 : FVec F S8x49x128x128 .f32 := broadcastInDim S8x49x128x128 ![] bcast_S_S8x49x128x128 main_cst
  let main_v2 : IVec S8x49x128x128 1 := cmpf .olt main_v0 main_v1
  let main_c : IVec S_ 1 := constantI S_ 1 1#1
  let main_v3 : IVec S_ 1 := (fun x v => Host.reduce IntOp.andi x v reducesTo_S8x49x128x128_S_d0_1_2_3 h_S_) main_v2 main_c
  let main_v4 : FVec F S8x128x128x64 .f32 := Host.absf main_arg1
  let main_cst_0 : FVec F S_ .f32 := constant S_ .f32 0x7F800000#32
  let main_v5 : FVec F S8x128x128x64 .f32 := broadcastInDim S8x128x128x64 ![] bcast_S_S8x128x128x64 main_cst_0
  let main_v6 : IVec S8x128x128x64 1 := cmpf .olt main_v4 main_v5
  let main_c_1 : IVec S_ 1 := constantI S_ 1 1#1
  let main_v7 : IVec S_ 1 := (fun x v => Host.reduce IntOp.andi x v reducesTo_S8x128x128x64_S_d0_1_2_3 h_S_) main_v6 main_c_1
  let main_v8 : IVec S_ 1 := andi main_v3 main_v7
  let main_v9 : FVec F S8x64x128 .f32 := Host.absf main_arg2
  let main_cst_2 : FVec F S_ .f32 := constant S_ .f32 0x7F800000#32
  let main_v10 : FVec F S8x64x128 .f32 := broadcastInDim S8x64x128 ![] bcast_S_S8x64x128 main_cst_2
  let main_v11 : IVec S8x64x128 1 := cmpf .olt main_v9 main_v10
  let main_c_3 : IVec S_ 1 := constantI S_ 1 1#1
  let main_v12 : IVec S_ 1 := (fun x v => Host.reduce IntOp.andi x v reducesTo_S8x64x128_S_d0_1_2 h_S_) main_v11 main_c_3
  let main_v13 : IVec S_ 1 := andi main_v8 main_v12
  main_v13
-- ==== Kernel.lean ====
abbrev S8x49x128x128 : Shape := ⟨4, ![8, 49, 128, 128]⟩
abbrev S8x128x128x64 : Shape := ⟨4, ![8, 128, 128, 64]⟩
abbrev S8x64x128 : Shape := ⟨3, ![8, 64, 128]⟩
abbrev S8x49x128x64 : Shape := ⟨4, ![8, 49, 128, 64]⟩
abbrev S1x49x128x128 : Shape := ⟨4, ![1, 49, 128, 128]⟩
abbrev S1x64x128 : Shape := ⟨3, ![1, 64, 128]⟩
abbrev S1x49x128x64 : Shape := ⟨4, ![1, 49, 128, 64]⟩
abbrev S49x128x128 : Shape := ⟨3, ![49, 128, 128]⟩
abbrev S49x128 : Shape := ⟨2, ![49, 128]⟩
abbrev S64x128 : Shape := ⟨2, ![64, 128]⟩
abbrev S128x64 : Shape := ⟨2, ![128, 64]⟩
abbrev S49x128x1 : Shape := ⟨3, ![49, 128, 1]⟩
abbrev S1x128x64 : Shape := ⟨3, ![1, 128, 64]⟩
abbrev S49x128x64 : Shape := ⟨3, ![49, 128, 64]⟩

abbrev nBuf : Space → Nat
  | .hbm => 4
  | .vmem => 6
  | .smem => 0
  | _ => 0

abbrev bufTy : (tb : Table) → Fin (tcTables nBuf tb) → BufTy
  | .hbm, ⟨0, _⟩ => ⟨S8x49x128x128, .f32⟩
  | .hbm, ⟨1, _⟩ => ⟨S8x128x128x64, .f32⟩
  | .hbm, ⟨2, _⟩ => ⟨S8x64x128, .f32⟩
  | .hbm, ⟨3, _⟩ => ⟨S8x49x128x64, .f32⟩
  | .local _ .vmem, ⟨0, _⟩ => ⟨S1x49x128x128, .f32⟩
  | .local _ .vmem, ⟨1, _⟩ => ⟨S1x49x128x128, .f32⟩
  | .local _ .vmem, ⟨2, _⟩ => ⟨S1x64x128, .f32⟩
  | .local _ .vmem, ⟨3, _⟩ => ⟨S1x64x128, .f32⟩
  | .local _ .vmem, ⟨4, _⟩ => ⟨S1x49x128x64, .f32⟩
  | .local _ .vmem, ⟨5, _⟩ => ⟨S1x49x128x64, .f32⟩
  | _, _ => ⟨S8x49x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x49x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x49x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x49x128x128_S1x49x128x128_0_0_0_0 : ∀ a, (![0, 0, 0, 0] : Fin 4 → Nat) a + S1x49x128x128.size a ≤ S1x49x128x128.size a
  h_S1x49x128x128 : 0 < S1x49x128x128.numel
  shapeCasts_S1x49x128x128_S49x128x128 : S1x49x128x128.ShapeCasts S49x128x128
  reduces_S49x128x128_S49x128 : S49x128x128.Reduces [2] S49x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  transposes_S64x128_p1_0_S128x64 : S64x128.Transposes [1, 0] S128x64
  shapeCasts_S49x128_S49x128x1 : S49x128.ShapeCasts S49x128x1
  shapeCasts_S128x64_S1x128x64 : S128x64.ShapeCasts S1x128x64
  broadcasts_S49x128x1_S49x128x64 : S49x128x1.Broadcasts S49x128x64
  broadcasts_S1x128x64_S49x128x64 : S1x128x64.Broadcasts S49x128x64
  inb_S1x49x128x64_S1x49x128x64_0_0_0_0 : ∀ a, (![0, 0, 0, 0] : Fin 4 → Nat) a + S1x49x128x64.size a ≤ S1x49x128x64.size a
  h_S1x49x128x64 : 0 < S1x49x128x64.numel
  shapeCasts_S1x49x128x64_S49x128x64 : S1x49x128x64.ShapeCasts S49x128x64
  shapeCasts_S49x128x64_S1x49x128x64 : S49x128x64.ShapeCasts S1x49x128x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x49x128x128.size a ≤ S8x49x128x128.size a
  hwx0_0 : ∀ i : grid0.Coords, EltTy.bits .f32 = 32 ∨ (Rect.block (s := S8x49x128x128) S1x49x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128.size a ≤ S8x64x128.size a
  hwx0_1 : ∀ i : grid0.Coords, EltTy.bits .f32 = 32 ∨ (Rect.block (s := S8x64x128) S1x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x49x128x64.size a ≤ S8x49x128x64.size a
  hwx0_2 : ∀ i : grid0.Coords, EltTy.bits .f32 = 32 ∨ (Rect.block (s := S8x49x128x64) S1x49x128x64.size (cc0_transform_2 i) (hinb0_2 i)).WholeWords (EltTy.packing .f32)

variable [Facts₀]

abbrev win0_0 : Pipeline.Window sig grid0 :=
  Pipeline.Window.ofSpec (Memref.whole main_arg0) S1x49x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x49x128x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x49x128x128 : Shape := ⟨4, ![8, 49, 128, 128]⟩
abbrev S8x128x128x64 : Shape := ⟨4, ![8, 128, 128, 64]⟩
abbrev S8x64x128 : Shape := ⟨3, ![8, 64, 128]⟩
abbrev S_ : Shape := ⟨0, ![]⟩
abbrev S8x49x128 : Shape := ⟨3, ![8, 49, 128]⟩
abbrev S8x128x64 : Shape := ⟨3, ![8, 128, 64]⟩
abbrev S8x49x128x1 : Shape := ⟨4, ![8, 49, 128, 1]⟩
abbrev S8x1x128x64 : Shape := ⟨4, ![8, 1, 128, 64]⟩
abbrev S8x49x128x64 : Shape := ⟨4, ![8, 49, 128, 64]⟩

abbrev nBuf : Space → Nat
  | .hbm => 14
  | .vmem => 0
  | .smem => 0
  | _ => 0

abbrev bufTy : (tb : Table) → Fin (tcTables nBuf tb) → BufTy
  | .hbm, ⟨0, _⟩ => ⟨S8x49x128x128, .f32⟩
  | .hbm, ⟨1, _⟩ => ⟨S8x128x128x64, .f32⟩
  | .hbm, ⟨2, _⟩ => ⟨S8x64x128, .f32⟩
  | .hbm, ⟨3, _⟩ => ⟨S_, .f32⟩
  | .hbm, ⟨4, _⟩ => ⟨S8x49x128, .f32⟩
  | .hbm, ⟨5, _⟩ => ⟨S8x128x64, .f32⟩
  | .hbm, ⟨6, _⟩ => ⟨S_, .f32⟩
  | .hbm, ⟨7, _⟩ => ⟨S8x128x64, .f32⟩
  | .hbm, ⟨8, _⟩ => ⟨S8x128x64, .f32⟩
  | .hbm, ⟨9, _⟩ => ⟨S8x49x128x1, .f32⟩
  | .hbm, ⟨10, _⟩ => ⟨S8x1x128x64, .f32⟩
  | .hbm, ⟨11, _⟩ => ⟨S8x49x128x64, .f32⟩
  | .hbm, ⟨12, _⟩ => ⟨S8x49x128x64, .f32⟩
  | .hbm, ⟨13, _⟩ => ⟨S8x49x128x64, .f32⟩
  | _, _ => ⟨S8x49x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  reducesTo_S8x49x128x128_S8x49x128_d3 : S8x49x128x128.ReducesTo [3] S8x49x128
  h_S_ : 0 < S_.numel
  transposes_S8x64x128_S8x128x64_0_2_1 : S8x64x128.Transposes [0, 2, 1] S8x128x64
  bcast_S_S8x128x64 : S_.BroadcastsInDim S8x128x64 (![] : Fin 0 → Fin S8x128x64.rank)
  bcast_S8x49x128_S8x49x128x1_0_1_2 : S8x49x128.BroadcastsInDim S8x49x128x1 (![0, 1, 2] : Fin 3 → Fin S8x49x128x1.rank)
  bcast_S8x128x64_S8x1x128x64_0_2_3 : S8x128x64.BroadcastsInDim S8x1x128x64 (![0, 2, 3] : Fin 3 → Fin S8x1x128x64.rank)
  bcast_S8x49x128x1_S8x49x128x64_0_1_2_3 : S8x49x128x1.BroadcastsInDim S8x49x128x64 (![0, 1, 2, 3] : Fin 4 → Fin S8x49x128x64.rank)
  bcast_S8x1x128x64_S8x49x128x64_0_1_2_3 : S8x1x128x64.BroadcastsInDim S8x49x128x64 (![0, 1, 2, 3] : Fin 4 → Fin S8x49x128x64.rank)

variable [Facts₀]

class Facts : Prop extends Facts₀ where

variable [Facts]
-- ==== Proof.DepthCue.lean ====
/-
  The depth cue, as one function of the two arrays it is computed from.

  A light-field stack `lfi[b, v, h, w]` (batch, angular view, height, width) and a mask `mask[b, f, h]`
  (batch, filter, height) give a result `out[b, v, h, f]`: the row `lfi[b, v, h, ·]` summed over the width, plus the
  mask entry `mask[b, f, h]` scaled by the width. The scale is the f32 word of 128.0, the same word in the kernel
  and in the reference, so it is never evaluated: it stays the word's value, whatever that is. Nothing here needs the
  entries to be finite: the two programs form the same sum and the same product in the same order, so the equation
  between them holds at the infinities as well.

  Also here, because it needs nothing but the library: a sum along the innermost axis of a rank-three array read at
  a pair of outer coordinates is the plain sum over that axis, at the exact values.
-/
import Idealize.ShloMosaic.PureOps.Ideal.Laws
import Idealize.ShloMosaic.Lib.ValueIdx

noncomputable section

namespace Cert.DepthCue

open Idealize.ShloMosaic Idealize.ShloMosaic.ValueIdx

/-- The light-field stack `[batch, view, height, width]`. -/
abbrev Stack : Shape := ⟨4, ![8, 49, 128, 128]⟩
/-- The mask `[batch, filter, height]`. -/
abbrev Mask : Shape := ⟨3, ![8, 64, 128]⟩
/-- The result `[batch, view, height, filter]`. -/
abbrev Cue : Shape := ⟨4, ![8, 49, 128, 64]⟩

/-- The width as both programs carry it: the value of the f32 word of 128.0. -/
abbrev width : EReal := Ideal.ofBits .f32 0x43000000#32

/-- The result at batch `b`, view `v`, height `h`, filter `f`: the row's sum over the width plus the scaled mask entry. -/
def cueAt (lfi : Stack.Idx → EReal) (mask : Mask.Idx → EReal) (b : Fin 8) (v : Fin 49) (h : Fin 128) (f : Fin 64) : EReal :=
  (∑ w : Fin 128, lfi (ix4 b v h w)) + width * mask (ix3 b f h)

/-- The whole result array, index by index. -/
def cue (lfi : Stack.Idx → EReal) (mask : Mask.Idx → EReal) : Cue.Idx → EReal :=
  fun i => cueAt lfi mask (i 0) (i 1) (i 2) (i 3)

theorem cue_apply (lfi : Stack.Idx → EReal) (mask : Mask.Idx → EReal) (i : Cue.Idx) :
    cue lfi mask i = (∑ w : Fin 128, lfi (ix4 (i 0) (i 1) (i 2) w)) + width * mask (ix3 (i 0) (i 3) (i 2)) := rfl

/-- At the exact values a sum along the innermost axis of an `[a, b, n]` array, started from the zero word, read at
    `(p, q)` is the sum of the entries `(p, q, k)` over `k`. -/
theorem innermost_sum_apply {a b n : ℕ} (src : FVec Ideal ⟨3, ![a, b, n]⟩ .f32)
    (h : (⟨3, ![a, b, n]⟩ : Shape).Reduces [2] ⟨2, ![a, b]⟩) (hφ : FKind.Formats .f32)
    (hacc : (0x00000000#32 : BitVec (FTy.bits .f32)) = FKind.add.neutral .f32 hφ) (p : Fin a) (q : Fin b) :
    multiReduction (F := Ideal) .add [2] ⟨2, ![a, b]⟩ src 0x00000000#32 h hφ hacc (ix2 p q) = ∑ k : Fin n, src (ix3 p q k) :=
  (Ideal.multiReduction_add_single src _ h hφ hacc (ix2 p q)).trans
    (Finset.sum_congr rfl fun k _ => congrArg src
      (funext fun ax => Fin.ext (by match ax with | ⟨0, _⟩ => rfl | ⟨1, _⟩ => rfl | ⟨2, _⟩ => rfl)))

end Cert.DepthCue

end
-- ==== Proof.KernelBlock.lean ====
/-
  What one grid point leaves in its block of the result, at the exact values.

  A grid point works on one batch entry: it holds a `[1, 49, 128, 128]` block of the stack and a `[1, 64, 128]`
  block of the mask, and writes a `[1, 49, 128, 64]` block of the result. The block it writes is, entry by entry,
  a lane sum of the stack block plus the scaled, transposed mask block. Read at `(·, v, h, f)` this is the sum over
  the width of the stack block's row `(0, v, h, ·)`, plus the width times the mask block at `(0, f, h)`: the lane sum
  is a plain sum over the innermost axis, and dropping the block's leading unit axis does not move an entry.
-/
import proofs.«150751_j42992622633282_1_alg».proof.Proof.Gen.KernelIdeal.Value
import proofs.«150751_j42992622633282_1_alg».proof.Proof.DepthCue
import Idealize.ShloMosaic.Lib.ValueLayout

noncomputable section

namespace Cert.KernelIdeal.BlockValue

open Cert.KernelIdeal Cert.KernelIdeal.Gen Idealize.ShloMosaic Idealize.ShloMosaic.ValueIdx Cert.DepthCue

/-- The block a grid point writes, at `(u, v, h, f)`: the row sum of its stack block plus the scaled entry of its
    mask block. -/
theorem block_apply (P0 : Vec Ideal S1x49x128x128 .f32) (P1 : Vec Ideal S1x64x128 .f32)
    (u : Fin 1) (v : Fin 49) (h : Fin 128) (f : Fin 64) :
    Cert.KernelIdeal.Value.E2 (F := Ideal) P0 P1 (ix4 u v h f)
      = (∑ w : Fin 128, P0 (ix4 (0 : Fin 1) v h w)) + width * P1 (ix3 (0 : Fin 1) f h) := by
  -- the lane sum, read at the pair `(v, h)` the block index names
  have hrow : Cert.KernelIdeal.Value.ix2_0 (ix4 u v h f) = ix2 v h :=
    funext fun a => Fin.ext (by match a with | ⟨0, _⟩ => rfl | ⟨1, _⟩ => rfl)
  have hsum : multiReduction (F := Ideal) .add [2] S49x128 (shapeCast S49x128x128 P0 shapeCasts_S1x49x128x128_S49x128x128)
        0x00000000#32 reduces_S49x128x128_S49x128 (.inl rfl) rfl (Cert.KernelIdeal.Value.ix2_0 (ix4 u v h f))
      = ∑ w : Fin 128, P0 (ix4 (0 : Fin 1) v h w) := by
    rw [hrow]
    refine (innermost_sum_apply _ reduces_S49x128x128_S49x128 (.inl rfl) rfl v h).trans (Finset.sum_congr rfl fun w _ => ?_)
    exact shapeCast_1abc_abc_apply P0 shapeCasts_S1x49x128x128_S49x128x128 v h w
  -- the mask entry the block index names
  have hmask : Cert.KernelIdeal.Value.ix2_1 (ix4 u v h f) = ix3 (0 : Fin 1) f h :=
    funext fun a => Fin.ext (by match a with | ⟨0, _⟩ => rfl | ⟨1, _⟩ => rfl | ⟨2, _⟩ => rfl)
  show multiReduction (F := Ideal) .add [2] S49x128 (shapeCast S49x128x128 P0 shapeCasts_S1x49x128x128_S49x128x128)
        0x00000000#32 reduces_S49x128x128_S49x128 (.inl rfl) rfl (Cert.KernelIdeal.Value.ix2_0 (ix4 u v h f))
      + width * P1 (Cert.KernelIdeal.Value.ix2_1 (ix4 u v h f)) = _
  rw [hsum, hmask]

/-- The same at any index of the block, written through its coordinates. -/
theorem block_at (P0 : Vec Ideal S1x49x128x128 .f32) (P1 : Vec Ideal S1x64x128 .f32) (y : S1x49x128x64.Idx) :
    Cert.KernelIdeal.Value.E2 (F := Ideal) P0 P1 y
      = (∑ w : Fin 128, P0 (ix4 (0 : Fin 1) (y 1) (y 2) w)) + width * P1 (ix3 (0 : Fin 1) (y 3) (y 2)) :=
  (congrArg (Cert.KernelIdeal.Value.E2 (F := Ideal) P0 P1) (eq_ix4 y)).trans (block_apply P0 P1 (y 0) (y 1) (y 2) (y 3))

end Cert.KernelIdeal.BlockValue

end
-- ==== Proof.KernelArray.lean ====
/-
  From the blocks to the whole result array.

  The grid has one point per batch entry. Point `t` fetches batch entry `t` of the stack and of the mask and writes
  batch entry `t` of the result: every index map sends `t` to block `(t, 0, …, 0)`, with blocks of one batch entry
  each. So what point `t` writes back is batch entry `t` of the depth cue of the two argument arrays, the eight
  blocks cover the result array (index `i` lies in the block of point `i₀`), and after the run the result array
  is the depth cue of the arguments, index by index.
-/
import proofs.«150751_j42992622633282_1_alg».proof.Proof.KernelBlock

noncomputable section

namespace Cert.KernelIdeal.ArrayValue

open Cert.KernelIdeal Cert.KernelIdeal.Gen Idealize.ShloMosaic Idealize.ShloMosaic.TcCoe Idealize.SL.Sem
open Idealize.ShloMosaic.ValueIdx Cert.DepthCue Cert.KernelIdeal.BlockValue
open Idealize.ShloMosaic.Pipeline (Dat)

variable (m : (ℓ : Loc nD τ sig) → Buf (Elt Ideal) ℓ) (ρ : Dev nD → PrngReg)

theorem zero4 : (![0, 0, 0, 0] : Fin 4 → Nat) = fun _ => 0 := funext fun a => by fin_cases a <;> rfl
theorem zero3 : (![0, 0, 0] : Fin 3 → Nat) = fun _ => 0 := funext fun a => by fin_cases a <;> rfl

/-- Where the three index maps send a grid point: to its own batch entry, and to block 0 on every other axis. -/
theorem batch_blocks : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- What the body leaves in the result's block, from the two blocks it loads, at any index of the block: the
    whole-block loads read their operands as they are, and the one store covers the block. -/
theorem body_block_at (x0 : Vec Ideal S1x49x128x128 .f32) (x1 : Vec Ideal S1x64x128 .f32) (y : S1x49x128x64.Idx) :
    out0_2 x0 x1 y = (∑ w : Fin 128, x0 (ix4 (0 : Fin 1) (y 1) (y 2) w)) + width * x1 (ix3 (0 : Fin 1) (y 3) (y 2)) := by
  unfold out0_2
  simp only [View.ld_unit_zero (S := S1x49x128x128) zero4, View.ld_unit_zero (S := S1x64x128) zero3]
  exact (Cert.KernelIdeal.Value.canon2_eq (F := Ideal) x0 x1 y).trans (block_at x0 x1 y)

/-- What point `t` writes back is batch entry `t` of the depth cue of the argument arrays. -/
theorem flushed_eq (c : Dev nD) (t : Fin cfg0.N) :
    (dats m 0 c).flushed 2 t
      = ((cfg0.win 2).blk t).view.read (Elt Ideal) (cue (V m c main_arg0) (V m c main_arg2)) := by
  rw [Cert.KernelIdeal.Value.flushed2]
  obtain ⟨a0, a1, a2, a3, b0, b1, b2, o0, o1, o2, o3⟩ := batch_blocks t
  funext j
  show out0_2 (iblk m c 0 t) (iblk m c 1 t) j
      = cue (V m c main_arg0) (V m c main_arg2) (((cfg0.win 2).blk t).view.emb j)
  refine (body_block_at (iblk m c 0 t) (iblk m c 1 t) j).trans ?_
  rw [cue_apply]
  have hj0 : (j 0).val < 1 := (j 0).isLt
  have hj1 : (j 1).val < 49 := (j 1).isLt
  have hj2 : (j 2).val < 128 := (j 2).isLt
  have hj3 : (j 3).val < 64 := (j 3).isLt
  congr 1
  · refine Finset.sum_congr rfl fun w _ => ?_
    show V m c main_arg0 (((cfg0.win 0).blk t).view.emb (ix4 (0 : Fin 1) (j 1) (j 2) w)) = V m c main_arg0 _
    congr 1
    funext a; apply Fin.ext
    match a with
    | ⟨0, _⟩ => show win0_0.index t (0 : Fin 4) * 1 + 1 * 0 = win0_2.index t (0 : Fin 4) * 1 + 1 * (j 0).val; omega
    | ⟨1, _⟩ => show win0_0.index t (1 : Fin 4) * 49 + 1 * (j 1).val = win0_2.index t (1 : Fin 4) * 49 + 1 * (j 1).val; omega
    | ⟨2, _⟩ => show win0_0.index t (2 : Fin 4) * 128 + 1 * (j 2).val = win0_2.index t (2 : Fin 4) * 128 + 1 * (j 2).val; omega
    | ⟨3, _⟩ => show win0_0.index t (3 : Fin 4) * 128 + 1 * w.val = w.val; omega
  · congr 1
    show V m c main_arg2 (((cfg0.win 1).blk t).view.emb (ix3 (0 : Fin 1) (j 3) (j 2))) = V m c main_arg2 _
    congr 1
    funext a; apply Fin.ext
    match a with
    | ⟨0, _⟩ => show win0_1.index t (0 : Fin 3) * 1 + 1 * 0 = win0_2.index t (0 : Fin 4) * 1 + 1 * (j 0).val; omega
    | ⟨1, _⟩ => show win0_1.index t (1 : Fin 3) * 64 + 1 * (j 3).val = win0_2.index t (3 : Fin 4) * 64 + 1 * (j 3).val; omega
    | ⟨2, _⟩ => show win0_1.index t (2 : Fin 3) * 128 + 1 * (j 2).val = win0_2.index t (2 : Fin 4) * 128 + 1 * (j 2).val; omega

/-- An index of the result array lies in point `t`'s block exactly when each coordinate lies in the block's range. -/
theorem mem_block (t : Fin cfg0.N) (i : S8x49x128x64.Idx) :
    i ∈ ((cfg0.win 2).blk t).view.set ↔ ∀ a : Fin 4, win0_2.index t a * S1x49x128x64.size a ≤ (i a).val
      ∧ (i a).val < win0_2.index t a * S1x49x128x64.size a + S1x49x128x64.size a := by
  show i ∈ ((View.whole main_v0).slice (win0_2.rect t)).set ↔ _
  rw [View.set_slice_whole, Rect.mem_set_unit]
  exact Iff.rfl

/-- Every index of the result array lies in the block of the point its batch coordinate names. -/
theorem covered (i : S8x49x128x64.Idx) :
    ∃ t : Fin cfg0.N, (cfg0.win 2).flush t = true ∧ i ∈ ((cfg0.win 2).blk t).view.set := by
  have hi0 : (i 0).val < 8 := (i 0).isLt
  have hi1 : (i 1).val < 49 := (i 1).isLt
  have hi2 : (i 2).val < 128 := (i 2).isLt
  have hi3 : (i 3).val < 64 := (i 3).isLt
  have hN : cfg0.N = 8 := N_0
  let t : Fin cfg0.N := ⟨(i 0).val, by omega⟩
  obtain ⟨-, -, -, -, -, -, -, o0, o1, o2, o3⟩ := batch_blocks t
  have ht : t.val = (i 0).val := rfl
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 49 ≤ (i 1).val ∧ (i 1).val < win0_2.index t (1 : Fin 4) * 49 + 49; omega
  | ⟨2, _⟩ => show win0_2.index t (2 : Fin 4) * 128 ≤ (i 2).val ∧ (i 2).val < win0_2.index t (2 : Fin 4) * 128 + 128; omega
  | ⟨3, _⟩ => show win0_2.index t (3 : Fin 4) * 64 ≤ (i 3).val ∧ (i 3).val < win0_2.index t (3 : Fin 4) * 64 + 64; omega

/-- After the run the result array is the depth cue of the argument arrays. -/
theorem final (c : Dev nD) :
    (dats m 0 c).arrAt 2 cfg0.N = cue (m ((c : Thread nD τ).loc main_arg0)) (m ((c : Thread nD τ).loc main_arg2)) :=
  (dats m 0 c).arrAt_eq_of_cover 2 (cue (V m c main_arg0) (V m c main_arg2)) (fun t _ => flushed_eq m c t) covered

/-- The kernel's run, read: the result array ends at the depth cue of the arguments, which end unchanged. -/
theorem run : θ_run defs (onTc (τ := τ) (main (F := Ideal))) ⟨m, fun _ => 0, ρ⟩ fun r => ∀ c : Dev nD,
      r.2.mem ((c : Thread nD τ).loc main_v0) = cue (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.ArrayValue

end
-- ==== Proof.RefValue.lean ====
/-
  The reference computes the depth cue.

  The reference sums the stack over its width (from the zero word, which is the real zero, so the start drops out),
  transposes the mask's last two axes, scales it by the width, and adds the two after broadcasting each across the
  other's missing axis. Read at `(b, v, h, f)` the first term is the sum over `w` of `lfi[b, v, h, w]` and the second
  the width times `mask[b, f, h]`: each broadcast and the transpose only rename coordinates.
-/
import proofs.«150751_j42992622633282_1_alg».proof.Proof.Gen.ReferenceIdeal.Read
import proofs.«150751_j42992622633282_1_alg».proof.Proof.DepthCue

noncomputable section

namespace Cert.ReferenceIdeal.RefValue

open Cert.ReferenceIdeal Cert.ReferenceIdeal.Read Idealize.ShloMosaic Idealize.ShloMosaic.ValueIdx Cert.DepthCue

/-- The reference's result, as the run states it stage by stage, is the depth cue of its two operands. -/
theorem result_eq (x0 : (⟨S8x49x128x128, .f32⟩ : BufTy).Contents (Elt Ideal))
    (x2 : (⟨S8x64x128, .f32⟩ : BufTy).Contents (Elt Ideal)) :
    val_main_v8 (F := Ideal) x0 x2 = cue x0 x2 := by
  funext i
  -- the row the summed term reads, and the mask entry the scaled term reads
  have hrow : ∀ k : Fin 128, idx_main_v0 (idx_main_v4 (idx_main_v6 i)) k = ix4 (i 0) (i 1) (i 2) k := fun k =>
    funext fun a => Fin.ext (by match a with | ⟨0, _⟩ => rfl | ⟨1, _⟩ => rfl | ⟨2, _⟩ => rfl | ⟨3, _⟩ => rfl)
  have hmask : idx_main_v1 (idx_main_v5 (idx_main_v7 i)) = ix3 (i 0) (i 3) (i 2) :=
    funext fun a => Fin.ext (by match a with | ⟨0, _⟩ => rfl | ⟨1, _⟩ => rfl | ⟨2, _⟩ => rfl)
  rw [val_main_v8_apply, val_main_v6_apply, val_main_v4_apply, val_main_v0_apply, val_main_cst_apply,
    val_main_v7_apply, val_main_v5_apply, val_main_v3_apply, val_main_v2_apply, val_main_cst_0_apply, val_main_v1_apply,
    cue_apply]
  simp only [hrow, hmask, Ideal.addf_def, Ideal.mulf_def, Ideal.ofBits_def, Ideal.ofBits_zero_f32, zero_add]
  rfl

end Cert.ReferenceIdeal.RefValue

end
-- ==== Proof.lean ====
/-
  A depth cue over a light-field stack: the kernel against its reference, over the extended reals.

  Both programs take a stack `lfi[b, v, h, w]`, an array of feature maps that neither reads, and a mask
  `mask[b, f, h]`, and return `out[b, v, h, f] = (∑ w, lfi[b, v, h, w]) + 128 · mask[b, f, h]`. The kernel walks the
  batch, one entry per grid point: it sums the entry's rows along the lanes, transposes and scales the entry's mask,
  and adds the two across each other's missing axis. The reference does the same on whole arrays. Both carry the width
  as the same f32 word and form the same sum and the same product in the same order, so the two results are equal entry
  by entry on all extended reals, and the precondition that the inputs are finite is never opened.

  The three frames: the kernel's two are the generated ones; the reference has no kernel, so its frame is its
  generated run with the result forgotten. No operation of the kernel is rewritten for its reading at the exact
  values, so the preservation conjunct is the true proposition. The
  equivalence sets the kernel's run (the result array is the depth cue of the arguments: Proof/KernelArray.lean over
  Proof/KernelBlock.lean) beside the reference's (its composed term is the depth cue of its arguments:
  Proof/RefValue.lean); the specification both meet is Proof/DepthCue.lean.
-/
import proofs.«150751_j42992622633282_1_alg».proof.Defs
import proofs.«150751_j42992622633282_1_alg».proof.Proof.Gen.Kernel
import proofs.«150751_j42992622633282_1_alg».proof.Proof.Gen.Kernel.Skeleton
import proofs.«150751_j42992622633282_1_alg».proof.Proof.Gen.Kernel.Launch
import proofs.«150751_j42992622633282_1_alg».proof.Proof.Gen.Kernel.Points
import proofs.«150751_j42992622633282_1_alg».proof.Proof.Gen.Kernel.Frame
import proofs.«150751_j42992622633282_1_alg».proof.Proof.Gen.KernelIdeal
import proofs.«150751_j42992622633282_1_alg».proof.Proof.Gen.KernelIdeal.Skeleton
import proofs.«150751_j42992622633282_1_alg».proof.Proof.Gen.KernelIdeal.Launch
import proofs.«150751_j42992622633282_1_alg».proof.Proof.Gen.KernelIdeal.Points
import proofs.«150751_j42992622633282_1_alg».proof.Proof.Gen.KernelIdeal.Frame
import proofs.«150751_j42992622633282_1_alg».proof.Proof.Gen.ReferenceIdeal
import proofs.«150751_j42992622633282_1_alg».proof.Proof.Gen.Pre_finite_inputs
import proofs.«150751_j42992622633282_1_alg».proof.Proof.Gen.KernelIdeal.Value
import proofs.«150751_j42992622633282_1_alg».proof.Proof.Gen.ReferenceIdeal.Run
import proofs.«150751_j42992622633282_1_alg».proof.Proof.Gen.ReferenceIdeal.Read
import proofs.«150751_j42992622633282_1_alg».proof.Proof.KernelArray
import proofs.«150751_j42992622633282_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the exact values. -/
theorem frame_kernel_ideal : Cert.frame_KernelIdeal := fun m ρ _ => Cert.KernelIdeal.Gen.frame m ρ

/-- The reference runs and leaves its arguments as they were: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the depth cue of the stack and the mask in
    their result arrays: the kernel block by block, the reference stage by stage. -/
theorem algebraic : Cert.algebraic_KernelIdeal_ReferenceIdeal := by
  intro m ρ m' ρ' _ hagree
  refine ⟨fun c => Cert.DepthCue.cue (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
